-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩

abbrev nBuf : Space → Nat
  | .hbm => 127
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S100000, .i32⟩
  | .hbm, ⟨72, _⟩ => ⟨S1700000, .i32⟩
  | .hbm, ⟨73, _⟩ => ⟨S1700000, .i32⟩
  | .hbm, ⟨74, _⟩ => ⟨S_, .f32⟩
  | .hbm, ⟨75, _⟩ => ⟨S1700000, .f32⟩
  | .hbm, ⟨76, _⟩ => ⟨S_, .f32⟩
  | .hbm, ⟨77, _⟩ => ⟨S100000, .f32⟩
  | .hbm, ⟨78, _⟩ => ⟨S1700000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000, .f32⟩
  | .hbm, ⟨107, _⟩ => ⟨S1700000, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x128, .f32⟩
  | .hbm, ⟨117, _⟩ => ⟨S1700000x1, .f32⟩
  | .hbm, ⟨118, _⟩ => ⟨S1700000x128, .f32⟩
  | .hbm, ⟨119, _⟩ => ⟨S1700000x128, .f32⟩
  | .hbm, ⟨120, _⟩ => ⟨S_, .f32⟩
  | .hbm, ⟨121, _⟩ => ⟨S100000x128, .f32⟩
  | .hbm, ⟨122, _⟩ => ⟨S1700000x1, .i32⟩
  | .hbm, ⟨123, _⟩ => ⟨S100000x128, .f32⟩
  | .hbm, ⟨124, _⟩ => ⟨S1x128, .f32⟩
  | .hbm, ⟨125, _⟩ => ⟨S100000x128, .f32⟩
  | .hbm, ⟨126, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_c_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S100000x128_S100000x128_S100000x256_d1 : Shape.Concatenates [S100000x128, S100000x128] S100000x256 1
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v91) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S100000x128, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S1x1600000, .i32⟩
  | 72 => ⟨S1600000, .i32⟩
  | 73 => ⟨S1x1600000, .i32⟩
  | 74 => ⟨S1600000, .i32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call3_cst : Ref sig .tc := ⟨.hbm, 131, rfl⟩
abbrev main_call3_v0 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/- The two array functions a graph-convolution layer is made of besides its aggregation, index by index over the
   extended reals: the feature product `mm` (rows of the node features against the weight matrix) and the epilogue
   `biasRelu` (add the bias row to every node's row, then clamp below at zero). Both programs compute a layer as
   `biasRelu (aggregate (mm h W)) b`; the aggregation is shared text and is carried as one function elsewhere. -/
import Idealize.ShloMosaic.PureOps.Ideal
import Idealize.ShloMosaic.Lib.ValueIdx

noncomputable section

namespace Cert.Gcn

open Idealize.ShloMosaic Idealize.ShloMosaic.ValueIdx
open scoped BigOperators

/-- Node features: 100000 nodes, 128 channels. -/
abbrev SNodes : Shape := ⟨2, ![100000, 128]⟩
/-- A weight matrix. -/
abbrev SWeight : Shape := ⟨2, ![128, 128]⟩
/-- A bias as one row. -/
abbrev SRow : Shape := ⟨2, ![1, 128]⟩
/-- A bias as a vector. -/
abbrev SBias : Shape := ⟨1, ![128]⟩

/-- The feature product: entry (n, j) is the sum over k of x (n, k) · w (k, j). -/
def mm (x : SNodes.Idx → EReal) (w : SWeight.Idx → EReal) : SNodes.Idx → EReal :=
  fun i => ∑ k : Fin 128, x (ix2 (n0 := 100000) (n1 := 128) (i 0) k) * w (ix2 (n0 := 128) (n1 := 128) k (i 1))

theorem mm_apply (x : SNodes.Idx → EReal) (w : SWeight.Idx → EReal) (p : Fin 100000) (q : Fin 128) :
    mm x w (ix2 p q) = ∑ k : Fin 128, x (ix2 p k) * w (ix2 k q) := rfl

/-- The epilogue: entry (n, j) is max (a (n, j) + r (0, j)) 0. -/
def biasRelu (a : SNodes.Idx → EReal) (r : SRow.Idx → EReal) : SNodes.Idx → EReal :=
  fun i => max (a i + r (ix2 (n0 := 1) (n1 := 128) 0 (i 1))) 0

theorem biasRelu_apply (a : SNodes.Idx → EReal) (r : SRow.Idx → EReal) (p : Fin 100000) (q : Fin 128) :
    biasRelu a r (ix2 p q) = max (a (ix2 p q) + r (ix2 0 q)) 0 := rfl

/-- A bias vector laid out as one row. -/
def rowOf (b : SBias.Idx → EReal) : SRow.Idx → EReal := fun j => b (ix1 (n := 128) (j 1))

theorem rowOf_apply (b : SBias.Idx → EReal) (q : Fin 128) : rowOf b (ix2 0 q) = b (ix1 q) := rfl

end Cert.Gcn

end
-- ==== Proof.Agg.lean ====
/- The aggregation of a graph-convolution layer as ONE function of the node features `h` and the edge list `e`: the
   messages `h[src] · norm` scatter-added into the destination nodes, where the index vectors (sources, destinations, the
   self loops appended, negative indices wrapped) and the symmetric degree normalisation `norm` depend on the edge list
   alone. Both programs compute it with the same host operations, so nothing here looks inside: it is named, and each
   program's chain is shown to be this function of its own `h`. With it, a whole layer `biasRelu (agg (mm h W) e) b` and
   the model's two outputs. -/
import proofs.«152271_j38268158607494_1_alg».proof.Proof.RefRead
import proofs.«152271_j38268158607494_1_alg».proof.Proof.Spec

noncomputable section

namespace Cert.Gcn

open Cert.ReferenceIdeal Cert.ReferenceIdeal.ReadP Idealize.ShloMosaic Idealize.ShloMosaic.TcCoe

variable {F : FTy → Type} [FloatOps F]

/-- Scatter-add, into the zero array and at the destination indices, of the gathered source rows of `h` scaled by the
    edge weights; indices and weights are the reference's own stages of the edge list. -/
def agg (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1 (val_main_v42 (F := F)) (val_main_v43 (F := F) e)
    (mulf (Host.gather gather_S100000x128_S1700000x1_S1700000x128_1_0_n_n_0_1_1128 h (val_main_v37 (F := F) e)) (val_main_v40 (F := F) e))

/-- The reference's first aggregation is `agg` of its first product. -/
theorem ref_agg1 (x0 : (⟨S100000x128, .f32⟩ : BufTy).Contents (Elt F)) (x1 : (⟨S2x1600000, .i32⟩ : BufTy).Contents (Elt F))
    (x2 : (⟨S128x128, .f32⟩ : BufTy).Contents (Elt F)) :
    val_main_v44 (F := F) x0 x1 x2 = agg (val_main_v0 (F := F) x0 x2) x1 := rfl

/-- The second layer recomputes the index vectors and the normalisation from the same edge list by the same operations. -/
theorem ref_zero2 : val_main_v91 (F := F) = val_main_v42 (F := F) := rfl
theorem ref_dst2 (x1 : (⟨S2x1600000, .i32⟩ : BufTy).Contents (Elt F)) : val_main_v92 (F := F) x1 = val_main_v43 (F := F) x1 := rfl
theorem ref_src2 (x1 : (⟨S2x1600000, .i32⟩ : BufTy).Contents (Elt F)) : val_main_v86 (F := F) x1 = val_main_v37 (F := F) x1 := rfl
theorem ref_norm2 (x1 : (⟨S2x1600000, .i32⟩ : BufTy).Contents (Elt F)) : val_main_v89 (F := F) x1 = val_main_v40 (F := F) x1 := rfl

/-- The reference's second aggregation is `agg` of its second product. -/
theorem ref_agg2 (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F)) (x4 : (⟨S128x128, .f32⟩ : BufTy).Contents (Elt F)) :
    val_main_v93 (F := F) x0 x1 x2 x3 x4 = agg (val_main_v49 (F := F) x0 x1 x2 x3 x4) x1 := by
  unfold val_main_v93 val_main_v90 val_main_v87 agg
  rw [ref_zero2, ref_dst2, ref_src2, ref_norm2]

/-- One layer at the exact values: product, aggregation, bias and clamp. -/
def layer (h : SNodes.Idx → EReal) (w : SWeight.Idx → EReal) (e : (⟨S2x1600000, .i32⟩ : BufTy).Contents (Elt Ideal)) (b : SBias.Idx → EReal) :
    SNodes.Idx → EReal :=
  biasRelu (agg (F := Ideal) (mm h w) e) (rowOf b)

/-- The first layer's output. -/
def out1 (x : SNodes.Idx → EReal) (e : (⟨S2x1600000, .i32⟩ : BufTy).Contents (Elt Ideal)) (w1 : SWeight.Idx → EReal) (b1 : SBias.Idx → EReal) :
    SNodes.Idx → EReal := layer x w1 e b1

/-- The second layer's output: the same layer applied to the first's. -/
def out2 (x : SNodes.Idx → EReal) (e : (⟨S2x1600000, .i32⟩ : BufTy).Contents (Elt Ideal)) (w1 : SWeight.Idx → EReal) (b1 : SBias.Idx → EReal)
    (w2 : SWeight.Idx → EReal) (b2 : SBias.Idx → EReal) : SNodes.Idx → EReal := layer (out1 x e w1 b1) w2 e b2

end Cert.Gcn

end
-- ==== Proof.AggKernel.lean ====
/- The kernel program's host operations between a product kernel and the epilogue kernel that follows it, read back: whatever
   the buffers hold when the stretch is entered, it leaves in the aggregation's buffer the function `Cert.Gcn.agg` of the
   product's buffer and the edge list's, and in the bias row's buffer the bias vector laid out as one row. The two stretches
   (one per layer) are the same operations over other buffers. -/
import proofs.«152271_j38268158607494_1_alg».proof.Proof.Gen.KernelIdeal.Launch
import proofs.«152271_j38268158607494_1_alg».proof.Proof.Agg

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- First layer: the aggregation's buffer after the stretch. -/
theorem agg1_of (W : Valuation τ sig (Elt F)) :
    StableHlo.after hostOps1_2 (StableHlo.after hostOps1_1 (StableHlo.after hostOps1 W)) (Proc.devRef .tc main_v44)
      = Cert.Gcn.agg (F := F) (W (Proc.devRef .tc main_v0)) (W (Proc.devRef .tc main_arg1)) := by
  simp only [hostOps1, hostOps1_1, hostOps1_2]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
/-- Second layer: the aggregation's buffer after the stretch. -/
theorem agg2_of (W : Valuation τ sig (Elt F)) :
    StableHlo.after hostOps3_2 (StableHlo.after hostOps3_1 (StableHlo.after hostOps3 W)) (Proc.devRef .tc main_v91)
      = Cert.Gcn.agg (F := F) (W (Proc.devRef .tc main_v47)) (W (Proc.devRef .tc main_arg1)) := by
  simp only [hostOps3, hostOps3_1, hostOps3_2]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- First layer: the bias row's buffer after the stretch is the first bias reshaped to one row. -/
theorem row1_of (W : Valuation τ sig (Elt F)) :
    StableHlo.after hostOps1_2 (StableHlo.after hostOps1_1 (StableHlo.after hostOps1 W)) (Proc.devRef .tc main_v45)
      = shapeCast S1x128 (W (Proc.devRef .tc main_arg3)) shapeCasts_S128_S1x128 := by
  simp only [hostOps1, hostOps1_1, hostOps1_2]
  after_results_simp
  rfl

/-- Second layer: the bias row's buffer after the stretch is the second bias reshaped to one row. -/
theorem row2_of (W : Valuation τ sig (Elt F)) :
    StableHlo.after hostOps3_2 (StableHlo.after hostOps3_1 (StableHlo.after hostOps3 W)) (Proc.devRef .tc main_v92)
      = shapeCast S1x128 (W (Proc.devRef .tc main_arg5)) shapeCasts_S128_S1x128 := by
  simp only [hostOps3, hostOps3_1, hostOps3_2]
  after_results_simp
  rfl

/-- The first stretch writes none of the arguments: the edge list. -/
theorem keep1_arg1 (W : Valuation τ sig (Elt F)) :
    StableHlo.after hostOps1_2 (StableHlo.after hostOps1_1 (StableHlo.after hostOps1 W)) (Proc.devRef .tc main_arg1)
      = W (Proc.devRef .tc main_arg1) := by
  simp only [hostOps1, hostOps1_1, hostOps1_2]
  after_results_simp

/-- The first stretch leaves the second weight matrix. -/
theorem keep1_arg4 (W : Valuation τ sig (Elt F)) :
    StableHlo.after hostOps1_2 (StableHlo.after hostOps1_1 (StableHlo.after hostOps1 W)) (Proc.devRef .tc main_arg4)
      = W (Proc.devRef .tc main_arg4) := by
  simp only [hostOps1, hostOps1_1, hostOps1_2]
  after_results_simp

/-- The first stretch leaves the second bias. -/
theorem keep1_arg5 (W : Valuation τ sig (Elt F)) :
    StableHlo.after hostOps1_2 (StableHlo.after hostOps1_1 (StableHlo.after hostOps1 W)) (Proc.devRef .tc main_arg5)
      = W (Proc.devRef .tc main_arg5) := by
  simp only [hostOps1, hostOps1_1, hostOps1_2]
  after_results_simp

/-- The second stretch leaves the first layer's output. -/
theorem keep3_v46 (W : Valuation τ sig (Elt F)) :
    StableHlo.after hostOps3_2 (StableHlo.after hostOps3_1 (StableHlo.after hostOps3 W)) (Proc.devRef .tc main_v46)
      = W (Proc.devRef .tc main_v46) := by
  simp only [hostOps3, hostOps3_1, hostOps3_2]
  after_results_simp

end Cert.KernelIdeal.Chain

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Region0Value.lean ====
/- The first product kernel (twenty blocks of 5000 rows, the whole weight matrix at every point) read as one array function: block t of the output is the product of block t of the rows with the weights, the blocks tile the output, so the array is `Cert.Gcn.mm` of the two input arrays. -/
import proofs.«152271_j38268158607494_1_alg».proof.Proof.Gen.KernelIdeal.Frame
import proofs.«152271_j38268158607494_1_alg».proof.Proof.Spec
import proofs.«152271_j38268158607494_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## One block: the product of 5000 rows with the weights -/

/-- The body reads and writes its buffers whole: every offset is zero. -/
theorem offsets0_zero : (![0, 0] : Fin 2 → Nat) = fun _ => 0 := funext fun a => by fin_cases a <;> rfl

/-- What the body stores, at row p and column q of its block: the sum over k of x0 (p, k) · x1 (k, q). Over the
    extended reals the two changes of float format are the identity, and the product into the zero accumulator is
    the plain sum. -/
theorem product0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  -- (a cast of the loaded rows to their own shape, where the body has one, is the identity)
  try rw [shapeCast_self]
  exact Cert.DotPlain.matmul_zero_rows_cols dot_S5000x128_S128x128_S5000x128_1_0_0_1_n_n rfl rfl rfl rfl rfl rfl none
    (truncf .bf16 x0 bitsLt_bf16_f32) (truncf .bf16 x1 bitsLt_bf16_f32) p q

/-! ## Where the blocks lie -/

/-- The block indices at grid point t: the rows' window and the output's window sit at block (t, 0), the weights'
    window at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has twenty points. -/
theorem points0 : cfg0.N = 20 := by decide

/-- Row p of the rows' block at point t is row 5000 t + p of the rows' input array. -/
theorem rows_block0_apply (c : Dev nD) (t : Fin cfg0.N) (p : Fin 5000) (k : Fin 128) (n : Fin 100000)
    (hn : n.val = t.val * 5000 + p.val) :
    (iblk0 V c 0 t : Vec Ideal S5000x128 .f32) (ix2 p k) = (V c main_arg0 : Cert.Gcn.SNodes.Idx → EReal) (ix2 n k) := by
  obtain ⟨e0, e1, -⟩ := index_facts0 t
  unfold iblk0
  show V c main_arg0 (((cfg0.win 0).blk t).view.emb (ix2 p k)) = V c main_arg0 (ix2 n k)
  congr 1
  funext a; apply Fin.ext
  -- a block's coordinate is its block index times the block's extent plus the coordinate inside the block
  match a with
  | ⟨0, _⟩ => show win0_0.index t (0 : Fin 2) * 5000 + 1 * p.val = n.val; omega
  | ⟨1, _⟩ => show win0_0.index t (1 : Fin 2) * 128 + 1 * k.val = k.val; omega

/-- The weights' block at every point is the whole weights' input array. -/
theorem weights_block0_apply (c : Dev nD) (t : Fin cfg0.N) (k q : Fin 128) :
    (iblk0 V c 1 t : Vec Ideal S128x128 .f32) (ix2 k q) = (V c main_arg2 : Cert.Gcn.SWeight.Idx → EReal) (ix2 k q) := by
  obtain ⟨-, -, e2, e3, -⟩ := index_facts0 t
  unfold iblk0
  show V c main_arg2 (((cfg0.win 1).blk t).view.emb (ix2 k q)) = V c main_arg2 (ix2 k q)
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-! ## What a point writes back -/

/-- Point t writes back block t of the feature product of the two input arrays: entry (p, q) of what the body
    stored is the sum over k of (row 5000 t + p of the features) (k) · weights (k, q), which is the feature product
    at (5000 t + p, q), the array index the output's block has at (p, q). -/
theorem flushed0_eq (c : Dev nD) (t : Fin cfg0.N) :
    (dat0 (F := Ideal) V c).flushed 2 t
      = ((cfg0.win 2).blk t).view.read (Elt Ideal) (Cert.Gcn.mm (V c main_arg0) (V c main_arg2)) := by
  show (cfg0.win 2).cut (grid0.coords t) ((dat0 V c).after 2 t) = _
  rw [after0_2]
  unfold out0_2
  rw [View.canon_unit_zero offsets0_zero]
  simp only [View.ld_unit_zero (S := S5000x128) offsets0_zero, View.ld_unit_zero (S := S128x128) offsets0_zero]
  obtain ⟨-, -, -, -, e4, e5⟩ := index_facts0 t
  have ht : t.val < 20 := lt_of_lt_of_eq t.isLt points0
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Gcn.mm (V c main_arg0) (V c main_arg2) (((cfg0.win 2).blk t).view.emb (ix2 p q))
  have hn : t.val * 5000 + p.val < 100000 := by have := p.isLt; omega
  -- the output block's entry (p, q) is the array's entry (5000 t + p, q)
  have hi : ((cfg0.win 2).blk t).view.emb (ix2 p q) = ix2 (n0 := 100000) (n1 := 128) ⟨t.val * 5000 + p.val, hn⟩ q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hi, Cert.Gcn.mm_apply, product0_apply]
  -- the two sums agree term by term
  refine Finset.sum_congr rfl fun k _ => ?_
  rw [rows_block0_apply V c t p k ⟨_, hn⟩ rfl, weights_block0_apply V c t k q]

/-! ## The blocks tile the output -/

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every index of the output array is in the block of a point that writes back: row r is in block r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [points0]; omega⟩, rfl⟩
  obtain ⟨-, -, -, -, e4, e5⟩ := index_facts0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-! ## The array -/

/-- The first product kernel's output array after its twenty grid points, whatever the buffers held when the region was entered: the feature product of the two input arrays. -/
theorem region0_value (c : Dev nD) :
    (dat0 (F := Ideal) V c).arrAt 2 cfg0.N = Cert.Gcn.mm (V c main_arg0) (V c main_arg2) :=
  (dat0 V c).arrAt_eq_of_cover 2 (Cert.Gcn.mm (V c main_arg0) (V c main_arg2)) (fun t _ => flushed0_eq V c t) covered0

end Cert.KernelIdeal.RegionValue

end
-- ==== Proof.Region1Value.lean ====
/- The first epilogue kernel (twenty blocks of 5000 rows, the bias row at every point) read as one array function: block t of the output is max (block t + bias row, 0) entry by entry, the blocks tile the output, so the array is `Cert.Gcn.biasRelu` of the two input arrays. -/
import proofs.«152271_j38268158607494_1_alg».proof.Proof.Gen.KernelIdeal.Frame
import proofs.«152271_j38268158607494_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The all-zero offset of a rank-2 rectangle, as the constant function. -/
theorem offsets1_zero : (![0, 0] : Fin 2 → Nat) = fun _ => 0 := funext fun a => by fin_cases a <;> rfl

/-- A [1,128] row broadcast to [5000,128] reads, at (p, q), the row's entry (0, q). -/
theorem row_broadcast1_apply (x : Vec Ideal S1x128 .f32) (h : S1x128.Broadcasts S5000x128) (p : Fin 5000) (q : Fin 128) :
    broadcastTo S5000x128 x h (ix2 p q) = x (ix2 0 q) := by
  refine broadcastTo_apply x h (ix2 p q) (ix2 0 q) fun a => ?_
  match a with
  | ⟨0, _⟩ => rfl
  | ⟨1, _⟩ => rfl

/-- The body's payload entry by entry over the extended reals: the loaded block plus the loaded row's entry of the same column, clamped below at zero. -/
theorem payload1_apply (x0 : Vec Ideal S5000x128 .f32) (x1 : Vec Ideal S1x128 .f32) (p : Fin 5000) (q : Fin 128) :
    k1_pay1 x0 x1 (ix2 p q) = max (x0 (ix2 p q) + x1 (ix2 0 q)) 0 := by
  unfold k1_pay1
  rw [maximumf_apply, addf_apply, broadcast_apply, shapeCast_self, shapeCast_self, row_broadcast1_apply,
    Ideal.ofBits_def, Ideal.ofBits_zero_f32]

/-- The index maps over the twenty grid points: the two row-blocked windows sit at block (t, 0), the bias row's window at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of the epilogue of the two input arrays: entry (p, q) of the block is array entry (5000 t + p, q), the rows operand's block sits at the same rows, and the bias row's block is the whole row. -/
theorem flushed1_eq (c : Dev nD) (t : Fin cfg1.N) :
    (dat1 (F := Ideal) V c).flushed 2 t
      = ((cfg1.win 2).blk t).view.read (Elt Ideal) (Cert.Gcn.biasRelu (V c main_v44) (V c main_v45)) := by
  show (cfg1.win 2).cut (grid1.coords t) ((dat1 V c).after 2 t) = _
  rw [after1_2]
  unfold out1_2
  rw [View.canon_unit_zero offsets1_zero]
  simp only [View.ld_unit_zero (S := S5000x128) offsets1_zero, View.ld_unit_zero (S := S1x128) offsets1_zero]
  obtain ⟨e00, e01, e10, e11, e20, e21⟩ := index_facts1 t
  have ht : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  show k1_pay1 (iblk1 V c 0 t) (iblk1 V c 1 t) (ix2 p q)
      = Cert.Gcn.biasRelu (V c main_v44) (V c main_v45) (((cfg1.win 2).blk t).view.emb (ix2 p q))
  rw [payload1_apply]
  have h2 : ((cfg1.win 2).blk t).view.emb (ix2 p q)
      = ix2 (n0 := 100000) (n1 := 128) ⟨t.val * 5000 + p.val, by omega⟩ q := by
    funext a; apply Fin.ext
    match a with
    | ⟨0, _⟩ => show win1_2.index t (0 : Fin 2) * 5000 + 1 * p.val = t.val * 5000 + p.val; rw [e20]; omega
    | ⟨1, _⟩ => show win1_2.index t (1 : Fin 2) * 128 + 1 * q.val = q.val; rw [e21]; omega
  have h0 : ((cfg1.win 0).blk t).view.emb (ix2 p q)
      = ix2 (n0 := 100000) (n1 := 128) ⟨t.val * 5000 + p.val, by omega⟩ q := by
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * q.val = q.val; rw [e01]; omega
  have h1 : ((cfg1.win 1).blk t).view.emb (ix2 (0 : Fin 1) q) = ix2 (n0 := 1) (n1 := 128) 0 q := by
    funext a; apply Fin.ext
    match a with
    | ⟨0, _⟩ => show win1_1.index t (0 : Fin 2) * 1 + 1 * 0 = 0; rw [e10]
    | ⟨1, _⟩ => show win1_1.index t (1 : Fin 2) * 128 + 1 * q.val = q.val; rw [e11]; omega
  have hb0 : iblk1 V c 0 t (ix2 p q)
      = V c main_v44 (ix2 (n0 := 100000) (n1 := 128) ⟨t.val * 5000 + p.val, by omega⟩ q) :=
    congrArg (V c main_v44) h0
  have hb1 : iblk1 V c 1 t (ix2 (0 : Fin 1) q) = V c main_v45 (ix2 (n0 := 1) (n1 := 128) 0 q) :=
    congrArg (V c main_v45) h1
  rw [hb0, hb1, h2, Cert.Gcn.biasRelu_apply]

/-- An index of the output array is in point t's block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v46).slice (win1_2.rect t)).set ↔ _
  rw [View.set_slice_whole, Rect.mem_set_unit]
  exact Iff.rfl

/-- The twenty blocks tile the output: row r lies in the block of point r / 5000. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, htv⟩ : ∃ t : Fin cfg1.N, t.val = (i 0).val / 5000 :=
    ⟨⟨(i 0).val / 5000, by rw [show cfg1.N = 20 from N_1]; omega⟩, rfl⟩
  obtain ⟨-, -, -, -, e20, e21⟩ := index_facts1 t
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    rw [e20, htv]; omega
  | ⟨1, _⟩ =>
    show win1_2.index t (1 : Fin 2) * 128 ≤ (i 1).val ∧ (i 1).val < win1_2.index t (1 : Fin 2) * 128 + 128
    rw [e21]; omega

/-- The first epilogue kernel's output array after its twenty grid points, whatever the buffers held when the region was entered: bias row added, clamped below at zero. -/
theorem region1_value (c : Dev nD) :
    (dat1 (F := Ideal) V c).arrAt 2 cfg1.N = Cert.Gcn.biasRelu (V c main_v44) (V c main_v45) := by
  exact (dat1 (F := Ideal) V c).arrAt_eq_of_cover 2 (Cert.Gcn.biasRelu (V c main_v44) (V c main_v45))
    (fun t _ => flushed1_eq V c t) covered1

end Cert.KernelIdeal.RegionValue

end
-- ==== Proof.KernelChain.lean ====
/- The kernel program's result buffer as the model's two outputs side by side. The buffer contents at the segment
   boundaries of @main are a fold through its regions and host stretches; here the fold is read at the buffers that carry
   the computation: the first product (region 0), the aggregation of it and the bias row (the host stretch), the first
   epilogue (region 1: the first output), the second product of that output (region 2), its aggregation and bias row, the
   second epilogue (region 3: the second output), and the last host operation, which joins the two outputs. Each region's
   array is the region's function of the arrays it was entered with; each stretch leaves what it does not write. -/
import proofs.«152271_j38268158607494_1_alg».proof.Proof.Gen.KernelIdeal.Frame
import proofs.«152271_j38268158607494_1_alg».proof.Proof.AggKernel
import proofs.«152271_j38268158607494_1_alg».proof.Proof.Region0Value
import proofs.«152271_j38268158607494_1_alg».proof.Proof.Region1Value
import proofs.«152271_j38268158607494_1_alg».proof.Proof.Region2Value
import proofs.«152271_j38268158607494_1_alg».proof.Proof.Region3Value
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen Cert.KernelIdeal.RegionValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A bias vector reshaped to one row is the vector laid out as a row. -/
theorem shapeCast_row (b : (⟨S128, .f32⟩ : BufTy).Contents (Elt Ideal)) :
    shapeCast S1x128 b shapeCasts_S128_S1x128 = Cert.Gcn.rowOf b := by
  funext j
  obtain ⟨u, q, rfl⟩ : ∃ (u : Fin 1) (q : Fin 128), j = ix2 u q := ⟨j 0, j 1, eq_ix2 j⟩
  exact shapeCast_a_1a_apply b shapeCasts_S128_S1x128 u q

/-! ## Layer 1 -/

/-- Region 0 leaves the first product in its output array. -/
theorem prod1 (c : Dev nD) :
    W1 m ρ c (Proc.devRef .tc main_v0)
      = Cert.Gcn.mm (m ((c : Thread nD τ).loc main_arg0)) (m ((c : Thread nD τ).loc main_arg2)) :=
  (W1_arr m ρ c 2).trans (region0_value (V0 m ρ) c)

/-- Region 0 writes no argument. -/
theorem W1_arg1 (c : Dev nD) : W1 m ρ c (Proc.devRef .tc main_arg1) = m ((c : Thread nD τ).loc main_arg1) :=
  W1_of_ne m ρ c main_arg1 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

/-- Region 1 is entered with the aggregation of the first product … -/
theorem agg1 (c : Dev nD) :
    W4 m ρ c (Proc.devRef .tc main_v44)
      = Cert.Gcn.agg (F := Ideal) (Cert.Gcn.mm (m ((c : Thread nD τ).loc main_arg0)) (m ((c : Thread nD τ).loc main_arg2)))
          (m ((c : Thread nD τ).loc main_arg1)) := by
  rw [show W4 m ρ c (Proc.devRef .tc main_v44) = _ from agg1_of (W1 m ρ c), prod1, W1_arg1]

/-- … and with the first bias as a row. -/
theorem row1 (c : Dev nD) :
    W4 m ρ c (Proc.devRef .tc main_v45) = Cert.Gcn.rowOf (m ((c : Thread nD τ).loc main_arg3)) := by
  rw [show W4 m ρ c (Proc.devRef .tc main_v45) = _ from row1_of (W1 m ρ c), W1_arg3, shapeCast_row]

/-- Region 1 leaves the first output. -/
theorem out1_at (c : Dev nD) :
    W5 m ρ c (Proc.devRef .tc main_v46)
      = Cert.Gcn.out1 (m ((c : Thread nD τ).loc main_arg0)) (m ((c : Thread nD τ).loc main_arg1))
          (m ((c : Thread nD τ).loc main_arg2)) (m ((c : Thread nD τ).loc main_arg3)) := by
  refine ((W5_arr m ρ c 2).trans (region1_value (V4 m ρ) c)).trans ?_
  show Cert.Gcn.biasRelu (W4 m ρ c (Proc.devRef .tc main_v44)) (W4 m ρ c (Proc.devRef .tc main_v45)) = _
  rw [agg1, row1]
  rfl

/-! ## Layer 2 -/

/-- Neither the first stretch nor region 1 writes an argument. -/
theorem W5_arg1 (c : Dev nD) : W5 m ρ c (Proc.devRef .tc main_arg1) = m ((c : Thread nD τ).loc main_arg1) :=
  (W5_of_ne m ρ c main_arg1 (by decide)).trans ((keep1_arg1 (W1 m ρ c)).trans (W1_arg1 m ρ c))
theorem W5_arg4 (c : Dev nD) : W5 m ρ c (Proc.devRef .tc main_arg4) = m ((c : Thread nD τ).loc main_arg4) :=
  (W5_of_ne m ρ c main_arg4 (by decide)).trans ((keep1_arg4 (W1 m ρ c)).trans (W1_arg4 m ρ c))
theorem W5_arg5 (c : Dev nD) : W5 m ρ c (Proc.devRef .tc main_arg5) = m ((c : Thread nD τ).loc main_arg5) :=
  (W5_of_ne m ρ c main_arg5 (by decide)).trans ((keep1_arg5 (W1 m ρ c)).trans (W1_arg5 m ρ c))

/-- Region 2 leaves the second product: of the first output with the second weight matrix. -/
theorem prod2 (c : Dev nD) :
    W6 m ρ c (Proc.devRef .tc main_v47)
      = Cert.Gcn.mm (Cert.Gcn.out1 (m ((c : Thread nD τ).loc main_arg0)) (m ((c : Thread nD τ).loc main_arg1))
          (m ((c : Thread nD τ).loc main_arg2)) (m ((c : Thread nD τ).loc main_arg3))) (m ((c : Thread nD τ).loc main_arg4)) := by
  refine ((W6_arr m ρ c 2).trans (region2_value (V5 m ρ) c)).trans ?_
  show Cert.Gcn.mm (W5 m ρ c (Proc.devRef .tc main_v46)) (W5 m ρ c (Proc.devRef .tc main_arg4)) = _
  rw [out1_at, W5_arg4]

/-- Region 2 reads the first output and leaves it; it writes no argument. -/
theorem W6_v46 (c : Dev nD) : W6 m ρ c (Proc.devRef .tc main_v46) = W5 m ρ c (Proc.devRef .tc main_v46) :=
  (W6_arr m ρ c 0).trans (((dat2 (V5 m ρ) c).arrAt_in 0 rfl _).trans (A_eq2 (V5 m ρ) c 0))
theorem W6_arg1 (c : Dev nD) : W6 m ρ c (Proc.devRef .tc main_arg1) = m ((c : Thread nD τ).loc main_arg1) :=
  (W6_of_ne m ρ c main_arg1 (by decide)).trans (W5_arg1 m ρ c)
theorem W6_arg5 (c : Dev nD) : W6 m ρ c (Proc.devRef .tc main_arg5) = m ((c : Thread nD τ).loc main_arg5) :=
  (W6_of_ne m ρ c main_arg5 (by decide)).trans (W5_arg5 m ρ c)

/-- Region 3 is entered with the aggregation of the second product and the second bias as a row, and leaves the second output. -/
theorem out2_at (c : Dev nD) :
    W10 m ρ c (Proc.devRef .tc main_v93)
      = Cert.Gcn.out2 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine ((W10_arr m ρ c 2).trans (region3_value (V9 m ρ) c)).trans ?_
  show Cert.Gcn.biasRelu (W9 m ρ c (Proc.devRef .tc main_v91)) (W9 m ρ c (Proc.devRef .tc main_v92)) = _
  rw [show W9 m ρ c (Proc.devRef .tc main_v91) = _ from agg2_of (W6 m ρ c),
    show W9 m ρ c (Proc.devRef .tc main_v92) = _ from row2_of (W6 m ρ c), prod2, W6_arg1, W6_arg5, shapeCast_row]
  rfl

/-- The first output is still in its buffer when the last host operation runs. -/
theorem out1_last (c : Dev nD) :
    W10 m ρ c (Proc.devRef .tc main_v46)
      = Cert.Gcn.out1 (m ((c : Thread nD τ).loc main_arg0)) (m ((c : Thread nD τ).loc main_arg1))
          (m ((c : Thread nD τ).loc main_arg2)) (m ((c : Thread nD τ).loc main_arg3)) :=
  (W10_of_ne m ρ c main_v46 (by decide)).trans ((keep3_v46 (W6 m ρ c)).trans ((W6_v46 m ρ c).trans (out1_at m ρ c)))

/-! ## The result -/

/-- The result buffer at the last boundary: the two outputs joined along the channel axis. -/
theorem result_at (c : Dev nD) :
    W11 m ρ c (Proc.devRef .tc main_v94)
      = concatenate S100000x256 1
          [⟨S100000x128, Cert.Gcn.out1 (m ((c : Thread nD τ).loc main_arg0)) (m ((c : Thread nD τ).loc main_arg1))
              (m ((c : Thread nD τ).loc main_arg2)) (m ((c : Thread nD τ).loc main_arg3))⟩,
           ⟨S100000x128, Cert.Gcn.out2 (m ((c : Thread nD τ).loc main_arg0)) (m ((c : Thread nD τ).loc main_arg1))
              (m ((c : Thread nD τ).loc main_arg2)) (m ((c : Thread nD τ).loc main_arg3))
              (m ((c : Thread nD τ).loc main_arg4)) (m ((c : Thread nD τ).loc main_arg5))⟩]
          concatenates_S100000x128_S100000x128_S100000x256_d1 := by
  have h : W11 m ρ c (Proc.devRef .tc main_v94)
      = concatenate S100000x256 1 [⟨S100000x128, W10 m ρ c (Proc.devRef .tc main_v46)⟩, ⟨S100000x128, W10 m ρ c (Proc.devRef .tc main_v93)⟩]
          concatenates_S100000x128_S100000x128_S100000x256_d1 := by
    show StableHlo.after hostOps4 (W10 m ρ c) (Proc.devRef .tc main_v94) = _
    simp only [hostOps4]
    after_results
  rw [h, out1_last, out2_at]

end Cert.KernelIdeal.Chain

end
-- ==== Proof.RefValue.lean ====
/- The reference program's result as the model's two outputs side by side: its stages (one per host operation) are read at
   an index and recognised as the product `Cert.Gcn.mm`, the shared aggregation `Cert.Gcn.agg` and the epilogue
   `Cert.Gcn.biasRelu` of the bias laid out as a row, layer by layer. -/
import proofs.«152271_j38268158607494_1_alg».proof.Proof.RefRead
import proofs.«152271_j38268158607494_1_alg».proof.Proof.Agg
import proofs.«152271_j38268158607494_1_alg».proof.Proof.LibDotPlain
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx

/-- The left operand's index of the first product, by coordinates. -/
theorem lidx0 (p : Fin 100000) (q k : Fin 128) : lidx_main_v0 (ix2 p q) k = ix2 p k :=
  funext fun a => Fin.ext (by match a with | ⟨0, _⟩ => rfl | ⟨1, _⟩ => rfl)

/-- The right operand's index of the first product, by coordinates. -/
theorem ridx0 (p : Fin 100000) (q k : Fin 128) : ridx_main_v0 (ix2 p q) k = ix2 k q :=
  funext fun a => Fin.ext (by match a with | ⟨0, _⟩ => rfl | ⟨1, _⟩ => rfl)

/-- The left operand's index of the second product, by coordinates. -/
theorem lidx49 (p : Fin 100000) (q k : Fin 128) : lidx_main_v49 (ix2 p q) k = ix2 p k :=
  funext fun a => Fin.ext (by match a with | ⟨0, _⟩ => rfl | ⟨1, _⟩ => rfl)

/-- The right operand's index of the second product, by coordinates. -/
theorem ridx49 (p : Fin 100000) (q k : Fin 128) : ridx_main_v49 (ix2 p q) k = ix2 k q :=
  funext fun a => Fin.ext (by match a with | ⟨0, _⟩ => rfl | ⟨1, _⟩ => rfl)

/-- The host's product of the features with a weight matrix is the feature product. -/
theorem ref_mm1 (x0 : (⟨S100000x128, .f32⟩ : BufTy).Contents (Elt Ideal)) (x2 : (⟨S128x128, .f32⟩ : BufTy).Contents (Elt Ideal)) :
    val_main_v0 (F := Ideal) x0 x2 = Cert.Gcn.mm x0 x2 := by
  funext i
  obtain ⟨p, q, rfl⟩ : ∃ (p : Fin 100000) (q : Fin 128), i = ix2 p q := ⟨i 0, i 1, eq_ix2 i⟩
  rw [val_main_v0_apply, Cert.Gcn.mm_apply]
  refine Finset.sum_congr rfl fun k _ => ?_
  rw [lidx0, ridx0]

/-- The host's second product, of the first layer's output with the second weight matrix, is the feature product. -/
theorem ref_mm2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v49 (F := Ideal) x0 x1 x2 x3 x4 = Cert.Gcn.mm (val_main_v48 (F := Ideal) x0 x1 x2 x3) x4 := by
  funext i
  obtain ⟨p, q, rfl⟩ : ∃ (p : Fin 100000) (q : Fin 128), i = ix2 p q := ⟨i 0, i 1, eq_ix2 i⟩
  rw [val_main_v49_apply, Cert.Gcn.mm_apply]
  refine Finset.sum_congr rfl fun k _ => ?_
  rw [lidx49, ridx49]

/-- Where the first layer's bias is read: the two broadcasts send entry (p, q) to the bias's entry q. -/
theorem bidx1 (p : Fin 100000) (q : Fin 128) : idx_main_v45 (idx_main_v46 (ix2 p q)) = ix1 q :=
  funext fun a => Fin.ext (by match a with | ⟨0, _⟩ => rfl)

/-- Where the second layer's bias is read. -/
theorem bidx2 (p : Fin 100000) (q : Fin 128) : idx_main_v94 (idx_main_v95 (ix2 p q)) = ix1 q :=
  funext fun a => Fin.ext (by match a with | ⟨0, _⟩ => rfl)

/-- The first layer's output. -/
theorem ref_out1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v48 (F := Ideal) x0 x1 x2 x3 = Cert.Gcn.out1 x0 x1 x2 x3 := by
  funext i
  obtain ⟨p, q, rfl⟩ : ∃ (p : Fin 100000) (q : Fin 128), i = ix2 p q := ⟨i 0, i 1, eq_ix2 i⟩
  -- the stages, outermost first: clamp, add, the zero constant broadcast, the bias broadcast twice, aggregation, product
  rw [val_main_v48_apply, val_main_v47_apply, val_main_call1_v0_apply, val_main_call1_cst_apply, val_main_v46_apply,
    val_main_v45_apply, bidx1, Cert.Gcn.ref_agg1, ref_mm1]
  unfold Cert.Gcn.out1 Cert.Gcn.layer
  rw [Cert.Gcn.biasRelu_apply, Cert.Gcn.rowOf_apply, Ideal.ofBits_def, Ideal.ofBits_zero_f32, Ideal.maximumf_def, Ideal.addf_def]

/-- The second layer's output. -/
theorem ref_out2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v97 (F := Ideal) x0 x1 x2 x3 x4 x5 = Cert.Gcn.out2 x0 x1 x2 x3 x4 x5 := by
  funext i
  obtain ⟨p, q, rfl⟩ : ∃ (p : Fin 100000) (q : Fin 128), i = ix2 p q := ⟨i 0, i 1, eq_ix2 i⟩
  -- the same stages over the first layer's output
  rw [val_main_v97_apply, val_main_v96_apply, val_main_call3_v0_apply, val_main_call3_cst_apply, val_main_v95_apply,
    val_main_v94_apply, bidx2, Cert.Gcn.ref_agg2, ref_mm2, ref_out1]
  unfold Cert.Gcn.out2 Cert.Gcn.layer
  rw [Cert.Gcn.biasRelu_apply, Cert.Gcn.rowOf_apply, Ideal.ofBits_def, Ideal.ofBits_zero_f32, Ideal.maximumf_def, Ideal.addf_def]

/-- The reference's result: the two outputs joined along the channel axis. -/
theorem ref_result (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v98 (F := Ideal) x0 x1 x2 x3 x4 x5
      = concatenate S100000x256 1 [⟨S100000x128, Cert.Gcn.out1 x0 x1 x2 x3⟩, ⟨S100000x128, Cert.Gcn.out2 x0 x1 x2 x3 x4 x5⟩]
          concatenates_S100000x128_S100000x128_S100000x256_d1 := by
  unfold val_main_v98
  rw [ref_out1, ref_out2]

end Cert.ReferenceIdeal.RefValue

end
-- ==== Proof.lean ====
/- A two-layer graph convolution: each layer multiplies the node features by a weight matrix, aggregates the products over
   the edges (gather the source rows, scale by the symmetric degree normalisation, scatter-add into the destination rows),
   adds a bias and clamps below at zero; the result is the two layers' outputs side by side. The kernel program computes the
   products and the epilogues in four pipelined kernels (row blocks of 5000 nodes) and the aggregation on the host; the
   reference computes everything on the host. Over the extended reals the two agree entry by entry: a block-wise product
   rounded to a narrower format on the way in is, at exact values, the whole product; the aggregation is the same operations
   in both programs and is carried as one function; bias-and-clamp block by block is bias-and-clamp of the whole array.
   The three frames are the generated ones (the reference's is its run with the result dropped); the idealization rewrote
   nothing, so `preserves` is trivial. -/
import proofs.«152271_j38268158607494_1_alg».proof.Defs
import proofs.«152271_j38268158607494_1_alg».proof.Proof.Gen.Kernel
import proofs.«152271_j38268158607494_1_alg».proof.Proof.Gen.Kernel.Frame
import proofs.«152271_j38268158607494_1_alg».proof.Proof.Gen.KernelIdeal
import proofs.«152271_j38268158607494_1_alg».proof.Proof.Gen.KernelIdeal.Frame
import proofs.«152271_j38268158607494_1_alg».proof.Proof.Gen.ReferenceIdeal
import proofs.«152271_j38268158607494_1_alg».proof.Proof.Gen.Pre_finite_inputs
import proofs.«152271_j38268158607494_1_alg».proof.Proof.KernelRun
import proofs.«152271_j38268158607494_1_alg».proof.Proof.KernelChain
import proofs.«152271_j38268158607494_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the model's two outputs joined along the channel axis, as functions of arguments that agree. -/
theorem algebraic : Cert.algebraic_KernelIdeal_ReferenceIdeal := by
  intro m ρ m' ρ' _ hagree
  refine ⟨fun c => concatenate Cert.KernelIdeal.S100000x256 1
      [⟨Cert.KernelIdeal.S100000x128, Cert.Gcn.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))⟩,
       ⟨Cert.KernelIdeal.S100000x128, Cert.Gcn.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))⟩]
      Cert.KernelIdeal.Gen.concatenates_S100000x128_S100000x128_S100000x256_d1, ?_, ?_⟩
  · exact (θ_run Cert.KernelIdeal.defs _ _).mono
      (fun r h c => ⟨(h c).1.trans (Cert.KernelIdeal.Chain.result_at m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v98_eq, Cert.ReferenceIdeal.RefValue.ref_result,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
